-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S6400000 : Shape := ⟨1, ![6400000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg4 : IVec S6400000 32) (main_v13 : IVec S_ 1) (main_v15 : IVec S6400000 1) (main_c_5 : IVec S_ 32) : IVec S_ 1 :=
  let main_v16 : IVec S6400000 32 := broadcastInDim S6400000 ![] bcast_S_S6400000 main_c_5
  let main_v17 : IVec S6400000 1 := cmpi .slt main_arg4 main_v16
  let main_v18 : IVec S6400000 1 := andi main_v15 main_v17
  let main_c_6 : IVec S_ 1 := constantI S_ 1 1#1
  let main_v19 : IVec S_ 1 := (fun x v => Host.reduce IntOp.andi x v reducesTo_S6400000_S_d0 h_S_) main_v18 main_c_6
  let main_v20 : IVec S_ 1 := andi main_v13 main_v19
  main_v20

def fn {F : FTy → Type} [FloatOps F] (main_arg0 : FVec F S100000 .f32) (main_arg1 : FVec F S100000 .f32) (main_arg2 : FVec F S6400000 .f32) (main_arg3 : IVec S6400000 32) (main_arg4 : IVec S6400000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S6400000 .f32 := Host.absf main_arg2
  let main_cst_2 : FVec F S_ .f32 := constant S_ .f32 0x7F800000#32
  let main_v10 : FVec F S6400000 .f32 := broadcastInDim S6400000 ![] bcast_S_S6400000 main_cst_2
  let main_v11 : IVec S6400000 1 := cmpf .olt main_v9 main_v10
  let main_c_3 : IVec S_ 1 := constantI S_ 1 1#1
  let main_v12 : IVec S_ 1 := (fun x v => Host.reduce IntOp.andi x v reducesTo_S6400000_S_d0 h_S_) main_v11 main_c_3
  let main_v13 : IVec S_ 1 := andi main_v8 main_v12
  let main_c_4 : IVec S_ 32 := constantI S_ 32 4294867296#32
  let main_v14 : IVec S6400000 32 := broadcastInDim S6400000 ![] bcast_S_S6400000 main_c_4
  let main_v15 : IVec S6400000 1 := cmpi .sge main_arg4 main_v14
  let main_c_5 : IVec S_ 32 := constantI S_ 32 100000#32
  fn_part1 (F := F) main_arg4 main_v13 main_v15 main_c_5
-- ==== Kernel.lean ====
abbrev S100000 : Shape := ⟨1, ![100000]⟩
abbrev S6400000 : Shape := ⟨1, ![6400000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S50000x128 : Shape := ⟨2, ![50000, 128]⟩
abbrev S5000x128 : Shape := ⟨2, ![5000, 128]⟩

abbrev nBuf : Space → Nat
  | .hbm => 104
  | .vmem => 8
  | .smem => 0
  | _ => 0

abbrev bufTy : (tb : Table) → Fin (tcTables nBuf tb) → BufTy
  | .hbm, ⟨0, _⟩ => ⟨S100000, .f32⟩
  | .hbm, ⟨1, _⟩ => ⟨S100000, .f32⟩
  | .hbm, ⟨2, _⟩ => ⟨S6400000, .f32⟩
  | .hbm, ⟨3, _⟩ => ⟨S6400000, .i32⟩
  | .hbm, ⟨4, _⟩ => ⟨S6400000, .i32⟩
  | .hbm, ⟨5, _⟩ => ⟨S_, .i32⟩
  | .hbm, ⟨6, _⟩ => ⟨S6400000, .i32⟩
  | .hbm, ⟨7, _⟩ => ⟨S6400000, .i1⟩
  | .hbm, ⟨8, _⟩ => ⟨S_, .i32⟩
  | .hbm, ⟨9, _⟩ => ⟨S6400000, .i32⟩
  | .hbm, ⟨10, _⟩ => ⟨S6400000, .i32⟩
  | .hbm, ⟨11, _⟩ => ⟨S6400000, .i32⟩
  | .hbm, ⟨12, _⟩ => ⟨S6400000x1, .i32⟩
  | .hbm, ⟨13, _⟩ => ⟨S1, .i32⟩
  | .hbm, ⟨14, _⟩ => ⟨S_, .i32⟩
  | .hbm, ⟨15, _⟩ => ⟨S6400000x1, .i32⟩
  | .hbm, ⟨16, _⟩ => ⟨S6400000x1, .i1⟩
  | .hbm, ⟨17, _⟩ => ⟨S1x1, .i32⟩
  | .hbm, ⟨18, _⟩ => ⟨S6400000x1, .i32⟩
  | .hbm, ⟨19, _⟩ => ⟨S6400000x1, .i1⟩
  | .hbm, ⟨20, _⟩ => ⟨S6400000x1, .i1⟩
  | .hbm, ⟨21, _⟩ => ⟨S_, .i1⟩
  | .hbm, ⟨22, _⟩ => ⟨S6400000, .i1⟩
  | .hbm, ⟨23, _⟩ => ⟨S6400000, .f32⟩
  | .hbm, ⟨24, _⟩ => ⟨S_, .f32⟩
  | .hbm, ⟨25, _⟩ => ⟨S6400000, .f32⟩
  | .hbm, ⟨26, _⟩ => ⟨S6400000, .f32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S6400000x1, .i32⟩
  | .hbm, ⟨35, _⟩ => ⟨S1, .i32⟩
  | .hbm, ⟨36, _⟩ => ⟨S_, .i32⟩
  | .hbm, ⟨37, _⟩ => ⟨S6400000x1, .i32⟩
  | .hbm, ⟨38, _⟩ => ⟨S6400000x1, .i1⟩
  | .hbm, ⟨39, _⟩ => ⟨S1x1, .i32⟩
  | .hbm, ⟨40, _⟩ => ⟨S6400000x1, .i32⟩
  | .hbm, ⟨41, _⟩ => ⟨S6400000x1, .i1⟩
  | .hbm, ⟨42, _⟩ => ⟨S6400000x1, .i1⟩
  | .hbm, ⟨43, _⟩ => ⟨S_, .i1⟩
  | .hbm, ⟨44, _⟩ => ⟨S6400000, .i1⟩
  | .hbm, ⟨45, _⟩ => ⟨S6400000, .f32⟩
  | .hbm, ⟨46, _⟩ => ⟨S_, .f32⟩
  | .hbm, ⟨47, _⟩ => ⟨S6400000, .f32⟩
  | .hbm, ⟨48, _⟩ => ⟨S6400000, .f32⟩
  | .hbm, ⟨49, _⟩ => ⟨S6400000, .f32⟩
  | .hbm, ⟨50, _⟩ => ⟨S_, .i32⟩
  | .hbm, ⟨51, _⟩ => ⟨S6400000, .i32⟩
  | .hbm, ⟨52, _⟩ => ⟨S6400000, .i1⟩
  | .hbm, ⟨53, _⟩ => ⟨S_, .i32⟩
  | .hbm, ⟨54, _⟩ => ⟨S6400000, .i32⟩
  | .hbm, ⟨55, _⟩ => ⟨S6400000, .i32⟩
  | .hbm, ⟨56, _⟩ => ⟨S6400000, .i32⟩
  | .hbm, ⟨57, _⟩ => ⟨S6400000x1, .i32⟩
  | .hbm, ⟨58, _⟩ => ⟨S1, .i32⟩
  | .hbm, ⟨59, _⟩ => ⟨S_, .i32⟩
  | .hbm, ⟨60, _⟩ => ⟨S6400000x1, .i32⟩
  | .hbm, ⟨61, _⟩ => ⟨S6400000x1, .i1⟩
  | .hbm, ⟨62, _⟩ => ⟨S1x1, .i32⟩
  | .hbm, ⟨63, _⟩ => ⟨S6400000x1, .i32⟩
  | .hbm, ⟨64, _⟩ => ⟨S6400000x1, .i1⟩
  | .hbm, ⟨65, _⟩ => ⟨S6400000x1, .i1⟩
  | .hbm, ⟨66, _⟩ => ⟨S_, .i1⟩
  | .hbm, ⟨67, _⟩ => ⟨S6400000, .i1⟩
  | .hbm, ⟨68, _⟩ => ⟨S6400000, .f32⟩
  | .hbm, ⟨69, _⟩ => ⟨S_, .f32⟩
  | .hbm, ⟨70, _⟩ => ⟨S6400000, .f32⟩
  | .hbm, ⟨71, _⟩ => ⟨S6400000, .f32⟩
  | .hbm, ⟨72, _⟩ => ⟨S_, .i32⟩
  | .hbm, ⟨73, _⟩ => ⟨S6400000, .i32⟩
  | .hbm, ⟨74, _⟩ => ⟨S6400000, .i1⟩
  | .hbm, ⟨75, _⟩ => ⟨S_, .i32⟩
  | .hbm, ⟨76, _⟩ => ⟨S6400000, .i32⟩
  | .hbm, ⟨77, _⟩ => ⟨S6400000, .i32⟩
  | .hbm, ⟨78, _⟩ => ⟨S6400000, .i32⟩
  | .hbm, ⟨79, _⟩ => ⟨S6400000x1, .i32⟩
  | .hbm, ⟨80, _⟩ => ⟨S1, .i32⟩
  | .hbm, ⟨81, _⟩ => ⟨S_, .i32⟩
  | .hbm, ⟨82, _⟩ => ⟨S6400000x1, .i32⟩
  | .hbm, ⟨83, _⟩ => ⟨S6400000x1, .i1⟩
  | .hbm, ⟨84, _⟩ => ⟨S1x1, .i32⟩
  | .hbm, ⟨85, _⟩ => ⟨S6400000x1, .i32⟩
  | .hbm, ⟨86, _⟩ => ⟨S6400000x1, .i1⟩
  | .hbm, ⟨87, _⟩ => ⟨S6400000x1, .i1⟩
  | .hbm, ⟨88, _⟩ => ⟨S_, .i1⟩
  | .hbm, ⟨89, _⟩ => ⟨S6400000, .i1⟩
  | .hbm, ⟨90, _⟩ => ⟨S6400000, .f32⟩
  | .hbm, ⟨91, _⟩ => ⟨S_, .f32⟩
  | .hbm, ⟨92, _⟩ => ⟨S6400000, .f32⟩
  | .hbm, ⟨93, _⟩ => ⟨S6400000, .f32⟩
  | .hbm, ⟨94, _⟩ => ⟨S6400000, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S6400000, .f32⟩
  | .hbm, ⟨100, _⟩ => ⟨S_, .f32⟩
  | .hbm, ⟨101, _⟩ => ⟨S100000, .f32⟩
  | .hbm, ⟨102, _⟩ => ⟨S6400000x1, .i32⟩
  | .hbm, ⟨103, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v1 : Ref sig .tc := ⟨.hbm, 48, rfl⟩
abbrev main_v2 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v3 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v4 : Ref sig .tc := ⟨.hbm, 93, rfl⟩
abbrev main_v5 : Ref sig .tc := ⟨.hbm, 94, rfl⟩
abbrev main_v6 : Ref sig .tc := ⟨.hbm, 95, rfl⟩
abbrev main_v7 : Ref sig .tc := ⟨.hbm, 96, rfl⟩
abbrev main_v8 : Ref sig .tc := ⟨.hbm, 97, rfl⟩
abbrev main_v9 : Ref sig .tc := ⟨.hbm, 98, rfl⟩
abbrev main_v10 : Ref sig .tc := ⟨.hbm, 99, rfl⟩
abbrev main_cst : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  bcast_S_S100000 : S_.BroadcastsInDim S100000 (![] : Fin 0 → Fin S100000.rank)
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000 : Shape := ⟨1, ![100000]⟩
abbrev S6400000 : Shape := ⟨1, ![6400000]⟩
abbrev S_ : Shape := ⟨0, ![]⟩
abbrev S6400000x1 : Shape := ⟨2, ![6400000, 1]⟩

abbrev nBuf : Space → Nat
  | .hbm => 136
  | .vmem => 0
  | .smem => 0
  | _ => 0

abbrev hbmTy0_0 (i : Nat) : BufTy := match i % 128 with
  | 0 => ⟨S100000, .f32⟩
  | 1 => ⟨S100000, .f32⟩
  | 2 => ⟨S6400000, .f32⟩
  | 3 => ⟨S6400000, .i32⟩
  | 4 => ⟨S6400000, .i32⟩
  | 5 => ⟨S_, .i32⟩
  | 6 => ⟨S6400000, .i32⟩
  | 7 => ⟨S6400000, .i1⟩
  | 8 => ⟨S_, .i32⟩
  | 9 => ⟨S6400000, .i32⟩
  | 10 => ⟨S6400000, .i32⟩
  | 11 => ⟨S6400000, .i32⟩
  | 12 => ⟨S6400000x1, .i32⟩
  | 13 => ⟨S6400000, .f32⟩
  | 14 => ⟨S_, .i32⟩
  | 15 => ⟨S6400000, .i32⟩
  | 16 => ⟨S6400000, .i1⟩
  | 17 => ⟨S_, .i32⟩
  | 18 => ⟨S6400000, .i32⟩
  | 19 => ⟨S6400000, .i32⟩
  | 20 => ⟨S6400000, .i32⟩
  | 21 => ⟨S6400000x1, .i32⟩
  | 22 => ⟨S6400000, .f32⟩
  | 23 => ⟨S_, .i32⟩
  | 24 => ⟨S6400000, .i32⟩
  | 25 => ⟨S6400000, .i1⟩
  | 26 => ⟨S_, .i32⟩
  | 27 => ⟨S6400000, .i32⟩
  | 28 => ⟨S6400000, .i32⟩
  | 29 => ⟨S6400000, .i32⟩
  | 30 => ⟨S6400000x1, .i32⟩
  | 31 => ⟨S6400000, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000, .f32⟩
  | 41 => ⟨S6400000, .f32⟩
  | 42 => ⟨S_, .f32⟩
  | 43 => ⟨S6400000, .f32⟩
  | 44 => ⟨S6400000, .f32⟩
  | 45 => ⟨S6400000, .f32⟩
  | 46 => ⟨S_, .f32⟩
  | 47 => ⟨S6400000, .f32⟩
  | 48 => ⟨S6400000, .f32⟩
  | 49 => ⟨S6400000, .f32⟩
  | 50 => ⟨S6400000, .f32⟩
  | 51 => ⟨S_, .f32⟩
  | 52 => ⟨S6400000, .f32⟩
  | 53 => ⟨S6400000, .f32⟩
  | 54 => ⟨S_, .f32⟩
  | 55 => ⟨S6400000, .f32⟩
  | 56 => ⟨S6400000, .f32⟩
  | 57 => ⟨S6400000, .f32⟩
  | 58 => ⟨S6400000, .f32⟩
  | 59 => ⟨S_, .f32⟩
  | 60 => ⟨S6400000, .f32⟩
  | 61 => ⟨S6400000, .f32⟩
  | 62 => ⟨S6400000, .f32⟩
  | 63 => ⟨S6400000, .f32⟩
  | 64 => ⟨S6400000, .f32⟩
  | 65 => ⟨S6400000, .f32⟩
  | 66 => ⟨S_, .f32⟩
  | 67 => ⟨S6400000, .f32⟩
  | 68 => ⟨S6400000, .f32⟩
  | 69 => ⟨S6400000, .f32⟩
  | 70 => ⟨S_, .f32⟩
  | 71 => ⟨S6400000, .f32⟩
  | 72 => ⟨S6400000, .i1⟩
  | 73 => ⟨S_, .f32⟩
  | 74 => ⟨S6400000, .f32⟩
  | 75 => ⟨S6400000, .f32⟩
  | 76 => ⟨S_, .f32⟩
  | 77 => ⟨S6400000, .f32⟩
  | 78 => ⟨S6400000, .f32⟩
  | 79 => ⟨S_, .f32⟩
  | 80 => ⟨S6400000, .f32⟩
  | 81 => ⟨S6400000, .f32⟩
  | 82 => ⟨S_, .f32⟩
  | 83 => ⟨S6400000, .f32⟩
  | 84 => ⟨S6400000, .f32⟩
  | 85 => ⟨S6400000, .f32⟩
  | 86 => ⟨S_, .f32⟩
  | 87 => ⟨S6400000, .f32⟩
  | 88 => ⟨S6400000, .f32⟩
  | 89 => ⟨S_, .f32⟩
  | 90 => ⟨S6400000, .f32⟩
  | 91 => ⟨S6400000, .f32⟩
  | 92 => ⟨S_, .f32⟩
  | 93 => ⟨S6400000, .f32⟩
  | 94 => ⟨S6400000, .f32⟩
  | 95 => ⟨S6400000, .f32⟩
  | 96 => ⟨S_, .f32⟩
  | 97 => ⟨S6400000, .f32⟩
  | 98 => ⟨S6400000, .f32⟩
  | 99 => ⟨S_, .f32⟩
  | 100 => ⟨S6400000, .f32⟩
  | 101 => ⟨S6400000, .f32⟩
  | 102 => ⟨S6400000, .f32⟩
  | 103 => ⟨S6400000, .f32⟩
  | 104 => ⟨S6400000, .f32⟩
  | 105 => ⟨S6400000, .f32⟩
  | 106 => ⟨S6400000, .f32⟩
  | 107 => ⟨S6400000, .f32⟩
  | 108 => ⟨S6400000, .f32⟩
  | 109 => ⟨S_, .f32⟩
  | 110 => ⟨S6400000, .f32⟩
  | 111 => ⟨S6400000, .f32⟩
  | 112 => ⟨S6400000, .f32⟩
  | 113 => ⟨S6400000, .f32⟩
  | 114 => ⟨S_, .f32⟩
  | 115 => ⟨S6400000, .f32⟩
  | 116 => ⟨S6400000, .f32⟩
  | 117 => ⟨S_, .f32⟩
  | 118 => ⟨S6400000, .f32⟩
  | 119 => ⟨S6400000, .f32⟩
  | 120 => ⟨S6400000, .f32⟩
  | 121 => ⟨S6400000, .f32⟩
  | 122 => ⟨S6400000, .f32⟩
  | 123 => ⟨S6400000, .f32⟩
  | 124 => ⟨S6400000, .f32⟩
  | 125 => ⟨S6400000, .f32⟩
  | 126 => ⟨S_, .f32⟩
  | 127 => ⟨S6400000, .f32⟩
  | _ => ⟨S100000, .f32⟩

abbrev hbmTy0_1 (i : Nat) : BufTy := match i % 128 with
  | 0 => ⟨S6400000, .i1⟩
  | 1 => ⟨S_, .f32⟩
  | 2 => ⟨S6400000, .f32⟩
  | 3 => ⟨S6400000, .f32⟩
  | 4 => ⟨S_, .f32⟩
  | 5 => ⟨S100000, .f32⟩
  | 6 => ⟨S6400000x1, .i32⟩
  | 7 => ⟨S100000, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_22 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_23 : Ref sig .tc := ⟨.hbm, 114, rfl⟩
abbrev main_v84 : Ref sig .tc := ⟨.hbm, 115, rfl⟩
abbrev main_v85 : Ref sig .tc := ⟨.hbm, 116, rfl⟩
abbrev main_cst_24 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_25 : Ref sig .tc := ⟨.hbm, 126, rfl⟩
abbrev main_v94 : Ref sig .tc := ⟨.hbm, 127, rfl⟩
abbrev main_v95 : Ref sig .tc := ⟨.hbm, 128, rfl⟩
abbrev main_cst_26 : Ref sig .tc := ⟨.hbm, 129, rfl⟩
abbrev main_v96 : Ref sig .tc := ⟨.hbm, 130, rfl⟩
abbrev main_v97 : Ref sig .tc := ⟨.hbm, 131, rfl⟩
abbrev main_cst_27 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000 : S_.BroadcastsInDim S100000 (![] : Fin 0 → Fin S100000.rank)
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.EdgeEnergy.lean ====
/-
  The energy of one edge, as ONE function on the extended reals.

  With d the distance, s = sqrt (d * d + 1) the shielded distance and x = d / 2, the short-range switch is
  sw = 1 - 10 x^3 + 15 x^4 - 6 x^5 where d < 2 and 0 elsewhere; the charge term is
  K * qq * (sw * C s + (1 - sw) * C d) with C r = 1 / r + r / 144 - 1/6 (the literal 1/6 is the same f32 word on both
  sides and is never evaluated), the dipole term K * dd * (sw * T s + (1 - sw) * T d) with T r = 1 / (r * r * r), and
  the edge's energy is their sum where d <= 12 and 0 elsewhere.

  The kernel receives the products qq = q_i * q_j and dd = mu_i * mu_j already formed and cubes x as x * (x * x);
  the reference multiplies K * q_i first and then by q_j, and cubes x as (x * x) * x. On the extended reals
  multiplication is commutative and associative with no side condition, so the two are one function
  (`refEnergy_eq`): no finiteness is used.
-/
import Idealize.ShloMosaic.PureOps.Ideal
import Idealize.ShloMosaic.Lib.ValueIdx

noncomputable section

namespace Cert.Edge

open Idealize.ShloMosaic

/-- The f32 words both programs carry, read at the ideal instance. -/
abbrev w0 : EReal := Ideal.ofBits .f32 0x00000000#32
abbrev w1 : EReal := Ideal.ofBits .f32 0x3F800000#32
abbrev w2 : EReal := Ideal.ofBits .f32 0x40000000#32
abbrev w6 : EReal := Ideal.ofBits .f32 0x40C00000#32
abbrev w10 : EReal := Ideal.ofBits .f32 0x41200000#32
abbrev w12 : EReal := Ideal.ofBits .f32 0x41400000#32
abbrev w15 : EReal := Ideal.ofBits .f32 0x41700000#32
abbrev w144 : EReal := Ideal.ofBits .f32 0x43100000#32
abbrev wSixth : EReal := Ideal.ofBits .f32 0x3E2AAAAB#32
abbrev wK : EReal := Ideal.ofBits .f32 0x40E664F3#32

/-- The shielded distance sqrt (d * d + 1). -/
def shield (d : EReal) : EReal := Ideal.sqrt (d * d + w1)

/-- The polynomial 1 - 10 x^3 + 15 x^4 - 6 x^5 with the cube taken as x * (x * x). -/
def poly (x : EReal) : EReal :=
  ((w1 - w10 * (x * (x * x))) + w15 * ((x * x) * (x * x))) - w6 * (x * ((x * x) * (x * x)))

/-- The same polynomial with the cube taken as (x * x) * x. -/
def polyRef (x : EReal) : EReal :=
  ((w1 - w10 * ((x * x) * x)) + w15 * ((x * x) * (x * x))) - w6 * (x * ((x * x) * (x * x)))

theorem polyRef_eq (x : EReal) : polyRef x = poly x := by
  unfold polyRef poly
  rw [mul_comm (x * x) x]

/-- The short-range switch: the polynomial of d / 2 where d < 2, zero elsewhere. -/
def swOff (d : EReal) : EReal := Scalar.select (Ideal.cmp .olt d w2) (poly (Ideal.div d w2)) w0

def swOffRef (d : EReal) : EReal := Scalar.select (Ideal.cmp .olt d w2) (polyRef (Ideal.div d w2)) w0

theorem swOffRef_eq (d : EReal) : swOffRef d = swOff d := by
  unfold swOffRef swOff
  rw [polyRef_eq]

/-- The shifted-force Coulomb profile 1 / r + r / 144 - 1/6. -/
def coulomb (r : EReal) : EReal := (Ideal.div w1 r + Ideal.div r w144) - wSixth

/-- The dipole profile 1 / (r * r * r). -/
def invCube (r : EReal) : EReal := Ideal.div w1 ((r * r) * r)

/-- One edge's energy from the products qq, dd and the distance d. -/
def energy (qq dd d : EReal) : EReal :=
  Scalar.select (Ideal.cmp .ole d w12)
    ((wK * qq) * (swOff d * coulomb (shield d) + (w1 - swOff d) * coulomb d)
      + (wK * dd) * (swOff d * invCube (shield d) + (w1 - swOff d) * invCube d))
    w0

/-- One edge's energy as the reference associates it, from the four gathered entries. -/
def refEnergy (qi qj di dj d : EReal) : EReal :=
  Scalar.select (Ideal.cmp .ole d w12)
    (((wK * qi) * qj) * (swOffRef d * coulomb (shield d) + (w1 - swOffRef d) * coulomb d)
      + ((wK * di) * dj) * (swOffRef d * invCube (shield d) + (w1 - swOffRef d) * invCube d))
    w0

/-- The two associations are one function: products on the extended reals reassociate freely. -/
theorem refEnergy_eq (qi qj di dj d : EReal) : refEnergy qi qj di dj d = energy (qi * qj) (di * dj) d := by
  unfold refEnergy energy
  rw [swOffRef_eq, mul_assoc wK qi qj, mul_assoc wK di dj]

end Cert.Edge

end
-- ==== Proof.KernelBlock.lean ====
/-
  What the kernel body leaves in the output block, index by index: the body loads the three input blocks whole,
  applies only pointwise operations, and stores the result whole, so the stored block at an index is the edge
  energy of the three loaded entries at that index.
-/
import proofs.«417304_j48241072668729_2_alg».proof.Proof.Gen.KernelIdeal.Frame
import proofs.«417304_j48241072668729_2_alg».proof.Proof.EdgeEnergy
import Idealize.ShloMosaic.Lib.Pipeline.Value

noncomputable section

namespace Cert.KernelIdeal.Block

open Cert.KernelIdeal Cert.KernelIdeal.Gen Idealize.ShloMosaic Idealize.ShloMosaic.TcCoe

theorem origin : (![0, 0] : Fin 2 → Nat) = fun _ => 0 := funext fun a => by fin_cases a <;> rfl

/-- The stored block: window 0 carries the charge products, window 1 the dipole products, window 2 the distances. -/
theorem out_block (x0 x1 x2 : Vec Ideal S5000x128 .f32) (y : S5000x128.Idx) :
    out0_3 (F := Ideal) x0 x1 x2 y = Cert.Edge.energy (x0 y) (x1 y) (x2 y) := by
  unfold out0_3
  rw [View.canon_unit_zero origin]
  simp only [View.ld_unit_zero (S := S5000x128) origin]
  unfold k0_pay1 k0_pay7 k0_pay6 k0_pay5 k0_pay8 k0_pay9 k0_pay4 k0_pay3 k0_pay2
  simp only [shapeCast_self]
  rfl

end Cert.KernelIdeal.Block

end
-- ==== Proof.KernelArray.lean ====
/-
  The output array after the run, as ONE function of the three arrays the region finds.

  The four windows all cut the [50000, 128] arrays into ten blocks of 5000 rows, point t taking block t; the body
  is pointwise, so what point t writes back is the edge energy of the three input arrays read through block t, and the
  ten blocks tile the array: it ends holding the edge energy of the inputs at every index.
-/
import proofs.«417304_j48241072668729_2_alg».proof.Proof.KernelBlock

set_option maxRecDepth 16384

noncomputable section

namespace Cert.KernelIdeal.Arr

open Cert.KernelIdeal Cert.KernelIdeal.Gen Cert.KernelIdeal.Block Idealize.ShloMosaic Idealize.ShloMosaic.TcCoe
open Idealize.SL.Sem
open Idealize.ShloMosaic.Pipeline (Dat)

variable (m : (ℓ : Loc nD τ sig) → Buf (Elt Ideal) ℓ)

/-- The index maps, decided over the ten points: every window takes the output's block, whose row-block number is
    below ten and whose column-block number is zero. -/
theorem same_block : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 9 ∧ win0_3.index t (1 : Fin 2) = 0 :=
  (by decide +kernel : ∀ t : Fin grid0.N, _)

/-- Every row-block is some point's. -/
theorem block_onto : ∀ q : Fin 10, ∃ t : Fin cfg0.N, win0_3.index t = ![q.val, 0] :=
  (by decide +kernel : ∀ q : Fin 10, ∃ t : Fin grid0.N, win0_3.index t = ![q.val, 0])

set_option maxHeartbeats 2000000 in
/-- Block t of the edge energies of ANY three arrays is the body's result on their blocks t: every window reads its
    array through the same rectangle, rows 5000 t to 5000 t + 4999 and all 128 columns. -/
theorem block_energy (c : Dev nD) (t : Fin cfg0.N)
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2))) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (fun i : S50000x128.Idx => Cert.Edge.energy (A0 i) (A1 i) (A2 i)) := by
  obtain ⟨e0, e1, e2, e3, e4, e5, -, -⟩ := same_block t
  funext j
  show out0_3 (((cfg0.win 0).blk t).view.read (Elt Ideal) A0) (((cfg0.win 1).blk t).view.read (Elt Ideal) A1)
      (((cfg0.win 2).blk t).view.read (Elt Ideal) A2) j
    = Cert.Edge.energy (A0 (((cfg0.win 3).blk t).view.emb j)) (A1 (((cfg0.win 3).blk t).view.emb j)) (A2 (((cfg0.win 3).blk t).view.emb j))
  rw [out_block]
  show Cert.Edge.energy (A0 (((cfg0.win 0).blk t).view.emb j)) (A1 (((cfg0.win 1).blk t).view.emb j)) (A2 (((cfg0.win 2).blk t).view.emb j)) = _
  have h0 : ((cfg0.win 0).blk t).view.emb j = ((cfg0.win 3).blk t).view.emb j := by
    funext a; apply Fin.ext
    show (((View.whole main_v6).slice (win0_0.rect t)).emb j a : Nat) = (((View.whole main_v9).slice (win0_3.rect t)).emb j a : Nat)
    rw [View.emb_slice, Function.Embedding.trans_apply, View.emb_whole, Function.Embedding.refl_apply,
      View.emb_slice, Function.Embedding.trans_apply, View.emb_whole, Function.Embedding.refl_apply,
      Pipeline.Window.rect_emb_val, Pipeline.Window.rect_emb_val]
    match a with
    | ⟨0, _⟩ => show win0_0.index t (0 : Fin 2) * win0_0.size (0 : Fin 2) + (j 0).val = win0_3.index t (0 : Fin 2) * win0_3.size (0 : Fin 2) + (j 0).val; rw [e0]
    | ⟨1, _⟩ => show win0_0.index t (1 : Fin 2) * win0_0.size (1 : Fin 2) + (j 1).val = win0_3.index t (1 : Fin 2) * win0_3.size (1 : Fin 2) + (j 1).val; rw [e1]
  have h1 : ((cfg0.win 1).blk t).view.emb j = ((cfg0.win 3).blk t).view.emb j := by
    funext a; apply Fin.ext
    show (((View.whole main_v7).slice (win0_1.rect t)).emb j a : Nat) = (((View.whole main_v9).slice (win0_3.rect t)).emb j a : Nat)
    rw [View.emb_slice, Function.Embedding.trans_apply, View.emb_whole, Function.Embedding.refl_apply,
      View.emb_slice, Function.Embedding.trans_apply, View.emb_whole, Function.Embedding.refl_apply,
      Pipeline.Window.rect_emb_val, Pipeline.Window.rect_emb_val]
    match a with
    | ⟨0, _⟩ => show win0_1.index t (0 : Fin 2) * win0_1.size (0 : Fin 2) + (j 0).val = win0_3.index t (0 : Fin 2) * win0_3.size (0 : Fin 2) + (j 0).val; rw [e2]
    | ⟨1, _⟩ => show win0_1.index t (1 : Fin 2) * win0_1.size (1 : Fin 2) + (j 1).val = win0_3.index t (1 : Fin 2) * win0_3.size (1 : Fin 2) + (j 1).val; rw [e3]
  have h2 : ((cfg0.win 2).blk t).view.emb j = ((cfg0.win 3).blk t).view.emb j := by
    funext a; apply Fin.ext
    show (((View.whole main_v8).slice (win0_2.rect t)).emb j a : Nat) = (((View.whole main_v9).slice (win0_3.rect t)).emb j a : Nat)
    rw [View.emb_slice, Function.Embedding.trans_apply, View.emb_whole, Function.Embedding.refl_apply,
      View.emb_slice, Function.Embedding.trans_apply, View.emb_whole, Function.Embedding.refl_apply,
      Pipeline.Window.rect_emb_val, Pipeline.Window.rect_emb_val]
    match a with
    | ⟨0, _⟩ => show win0_2.index t (0 : Fin 2) * win0_2.size (0 : Fin 2) + (j 0).val = win0_3.index t (0 : Fin 2) * win0_3.size (0 : Fin 2) + (j 0).val; rw [e4]
    | ⟨1, _⟩ => show win0_2.index t (1 : Fin 2) * win0_2.size (1 : Fin 2) + (j 1).val = win0_3.index t (1 : Fin 2) * win0_3.size (1 : Fin 2) + (j 1).val; rw [e5]
  rw [h0, h1, h2]

/-- The edge energies of the three arrays the region finds, index by index. -/
def energies (c : Dev nD) : S50000x128.Idx → Elt Ideal .f32 :=
  fun i => Cert.Edge.energy (V m c (Pipeline.arrRef spec0 0) i) (V m c (Pipeline.arrRef spec0 1) i) (V m c (Pipeline.arrRef spec0 2) i)

/-- What point t writes back is block t of the energies. -/
theorem flushed_eq (c : Dev nD) (t : Fin cfg0.N) :
    (dats m 0 c).flushed 3 t = ((cfg0.win 3).blk t).view.read (Elt Ideal) (energies m c) := by
  show (cfg0.win 3).cut (grid0.coords t) ((dats m 0 c).after 3 t) = _
  rw [after0_3]
  unfold iblk energies
  exact block_energy c t _ _ _

/-- An index is in point t's block iff each coordinate is in the block's range. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v9).slice (win0_3.rect t)).set ↔ _
  rw [View.set_slice_whole, Rect.mem_set_unit]
  exact Iff.rfl

/-- The ten blocks tile the array: row r lies in block r / 5000. -/
theorem tiled (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the run. -/
theorem final (c : Dev nD) : (dats m 0 c).arrAt 3 cfg0.N = energies m c :=
  (dats m 0 c).arrAt_eq_of_cover 3 (energies m c) (fun t _ => flushed_eq m c t) (tiled)

end Cert.KernelIdeal.Arr

end
-- ==== Proof.KernelHost.lean ====
/-
  The host operations around the region, read as values.

  BEFORE the region the program gathers the charges and the dipoles at both index vectors, multiplies the two
  gathered vectors of each table, and lays the two products and the distances out as [50000, 128] arrays. Each gather
  is a take that fills: the index is wrapped the NumPy way (idx + 100000 where idx < 0), the table entry at the wrapped
  index is gathered, and it is kept where the wrapped index lies in [0, 99999] and replaced by a fill word elsewhere.
  AFTER the region the [50000, 128] output is laid out flat again and added, edge by edge, onto a zero vector at the
  positions idx_i names.
-/
import proofs.«417304_j48241072668729_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- An index vector wrapped the NumPy way. -/
def wrapped (idx : IVec S6400000 32) : IVec S6400000 32 :=
  select (cmpi .slt idx (broadcastInDim S6400000 ![] bcast_S_S6400000 (constantI S_ 32 0#32)))
    (addi idx (broadcastInDim S6400000 ![] bcast_S_S6400000 (constantI S_ 32 100000#32))) idx

/-- The wrapped indices as the [6400000, 1] column of start indices. -/
def column (idx : IVec S6400000 32) : IVec S6400000x1 32 :=
  broadcastInDim S6400000x1 ![0] bcast_S6400000_S6400000x1_0 (wrapped idx)

/-- Where the wrapped index lies in [0, 99999]. -/
def inRange (idx : IVec S6400000 32) : IVec S6400000 1 :=
  Host.reduce IntOp.andi
    (andi (cmpi .sge (column idx) (broadcastInDim S6400000x1 ![] bcast_S_S6400000x1 (constantI S_ 32 0#32)))
      (cmpi .sle (column idx)
        (broadcastInDim S6400000x1 ![0, 1] bcast_S1x1_S6400000x1_0_1
          (broadcastInDim S1x1 ![1] bcast_S1_S1x1_1 (constantI S1 32 99999#32)))))
    (constantI S_ 1 1#1) reducesTo_S6400000x1_S6400000_d1 h_S_

/-- The table entries at the wrapped indices. -/
def gathered (x : FVec Ideal S100000 .f32) (idx : IVec S6400000 32) : FVec Ideal S6400000 .f32 :=
  Host.gather gather_S100000_S6400000x1_S6400000_n_0_n_n_0_1_1 x (column idx)

/-- The take: the gathered entry where the wrapped index is in range, the fill word elsewhere. -/
def take (x : FVec Ideal S100000 .f32) (idx : IVec S6400000 32) : FVec Ideal S6400000 .f32 :=
  select (inRange idx) (gathered x idx) (broadcastInDim S6400000 ![] bcast_S_S6400000 (constant S_ .f32 0x7FC00000#32))

/-- Contents carried to a buffer's type and back are the contents. -/
theorem ofBuf_toBuf {T : BufTy} (x : TRef sig T) (v : T.Contents (Elt Ideal)) : x.ofBuf (x.toBuf v) = v := by
  unfold TRef.ofBuf TRef.toBuf
  simp only [cast_cast, cast_eq]

/-- At a result buffer of the takes, whose type is the value's own, carrying contents there changes nothing. -/
theorem toBuf_main_v0 (X : FVec Ideal S6400000 .f32) :
    (TRef.of main_v0 : TRef sig ⟨S6400000, .f32⟩).toBuf (Val := Elt Ideal) X = X := rfl
theorem toBuf_main_v1 (X : FVec Ideal S6400000 .f32) :
    (TRef.of main_v1 : TRef sig ⟨S6400000, .f32⟩).toBuf (Val := Elt Ideal) X = X := rfl
theorem toBuf_main_v3 (X : FVec Ideal S6400000 .f32) :
    (TRef.of main_v3 : TRef sig ⟨S6400000, .f32⟩).toBuf (Val := Elt Ideal) X = X := rfl
theorem toBuf_main_v4 (X : FVec Ideal S6400000 .f32) :
    (TRef.of main_v4 : TRef sig ⟨S6400000, .f32⟩).toBuf (Val := Elt Ideal) X = X := rfl

variable (m : (ℓ : Loc nD τ sig) → Buf (Elt Ideal) ℓ)

set_option maxHeartbeats 40000000 in
/-- The region finds, as its first input, the product of the two takes of the charges, as a [50000, 128] array. -/
theorem V_products_q (c : Dev nD) :
    V m c (Pipeline.arrRef spec0 0) = shapeCast S50000x128
      (mulf (take (m ((c.tc : Thread nD τ).loc main_arg0)) (m ((c.tc : Thread nD τ).loc main_arg3))) (take (m ((c.tc : Thread nD τ).loc main_arg0)) (m ((c.tc : Thread nD τ).loc main_arg4))))
      shapeCasts_S6400000_S50000x128 := by
  have e : V m c main_v6 = shapeCast S50000x128 (mulf (F := Ideal) (s := S6400000) (φ := .f32) (((TRef.of main_v0 : TRef sig ⟨S6400000, .f32⟩).toBuf (Val := Elt Ideal) (select ((TRef.of main_call0_v12 : TRef sig ⟨S6400000, .i1⟩).ofBuf (Val := Elt Ideal) ((TRef.of main_call0_v12 : TRef sig ⟨S6400000, .i1⟩).toBuf (Val := Elt Ideal) (Host.reduce IntOp.andi (andi (cmpi .sge (broadcastInDim S6400000x1 ![0] bcast_S6400000_S6400000x1_0 (select (cmpi .slt (m ((c.tc : Thread nD τ).loc main_arg3)) (broadcastInDim S6400000 ![] bcast_S_S6400000 (constantI S_ 32 0#32))) (addi (m ((c.tc : Thread nD τ).loc main_arg3)) (broadcastInDim S6400000 ![] bcast_S_S6400000 (constantI S_ 32 100000#32))) (m ((c.tc : Thread nD τ).loc main_arg3)))) (broadcastInDim S6400000x1 ![] bcast_S_S6400000x1 (constantI S_ 32 0#32))) (cmpi .sle (broadcastInDim S6400000x1 ![0] bcast_S6400000_S6400000x1_0 (select (cmpi .slt (m ((c.tc : Thread nD τ).loc main_arg3)) (broadcastInDim S6400000 ![] bcast_S_S6400000 (constantI S_ 32 0#32))) (addi (m ((c.tc : Thread nD τ).loc main_arg3)) (broadcastInDim S6400000 ![] bcast_S_S6400000 (constantI S_ 32 100000#32))) (m ((c.tc : Thread nD τ).loc main_arg3)))) (broadcastInDim S6400000x1 ![0, 1] bcast_S1x1_S6400000x1_0_1 (broadcastInDim S1x1 ![1] bcast_S1_S1x1_1 (constantI S1 32 99999#32))))) (constantI S_ 1 1#1) reducesTo_S6400000x1_S6400000_d1 h_S_ : IVec S6400000 1)) : IVec S6400000 1) (Host.gather gather_S100000_S6400000x1_S6400000_n_0_n_n_0_1_1 (m ((c.tc : Thread nD τ).loc main_arg0) : FVec Ideal S100000 .f32) (broadcastInDim S6400000x1 ![0] bcast_S6400000_S6400000x1_0 (select (cmpi .slt (m ((c.tc : Thread nD τ).loc main_arg3)) (broadcastInDim S6400000 ![] bcast_S_S6400000 (constantI S_ 32 0#32))) (addi (m ((c.tc : Thread nD τ).loc main_arg3)) (broadcastInDim S6400000 ![] bcast_S_S6400000 (constantI S_ 32 100000#32))) (m ((c.tc : Thread nD τ).loc main_arg3))))) (broadcastInDim S6400000 ![] bcast_S_S6400000 (constant (F := Ideal) S_ .f32 0x7FC00000#32)) : FVec Ideal S6400000 .f32)) : FVec Ideal S6400000 .f32) (((TRef.of main_v1 : TRef sig ⟨S6400000, .f32⟩).toBuf (Val := Elt Ideal) (select ((TRef.of main_call1_v12 : TRef sig ⟨S6400000, .i1⟩).ofBuf (Val := Elt Ideal) ((TRef.of main_call1_v12 : TRef sig ⟨S6400000, .i1⟩).toBuf (Val := Elt Ideal) (Host.reduce IntOp.andi (andi (cmpi .sge (broadcastInDim S6400000x1 ![0] bcast_S6400000_S6400000x1_0 (select (cmpi .slt (m ((c.tc : Thread nD τ).loc main_arg4)) (broadcastInDim S6400000 ![] bcast_S_S6400000 (constantI S_ 32 0#32))) (addi (m ((c.tc : Thread nD τ).loc main_arg4)) (broadcastInDim S6400000 ![] bcast_S_S6400000 (constantI S_ 32 100000#32))) (m ((c.tc : Thread nD τ).loc main_arg4)))) (broadcastInDim S6400000x1 ![] bcast_S_S6400000x1 (constantI S_ 32 0#32))) (cmpi .sle (broadcastInDim S6400000x1 ![0] bcast_S6400000_S6400000x1_0 (select (cmpi .slt (m ((c.tc : Thread nD τ).loc main_arg4)) (broadcastInDim S6400000 ![] bcast_S_S6400000 (constantI S_ 32 0#32))) (addi (m ((c.tc : Thread nD τ).loc main_arg4)) (broadcastInDim S6400000 ![] bcast_S_S6400000 (constantI S_ 32 100000#32))) (m ((c.tc : Thread nD τ).loc main_arg4)))) (broadcastInDim S6400000x1 ![0, 1] bcast_S1x1_S6400000x1_0_1 (broadcastInDim S1x1 ![1] bcast_S1_S1x1_1 (constantI S1 32 99999#32))))) (constantI S_ 1 1#1) reducesTo_S6400000x1_S6400000_d1 h_S_ : IVec S6400000 1)) : IVec S6400000 1) (Host.gather gather_S100000_S6400000x1_S6400000_n_0_n_n_0_1_1 (m ((c.tc : Thread nD τ).loc main_arg0) : FVec Ideal S100000 .f32) (broadcastInDim S6400000x1 ![0] bcast_S6400000_S6400000x1_0 (select (cmpi .slt (m ((c.tc : Thread nD τ).loc main_arg4)) (broadcastInDim S6400000 ![] bcast_S_S6400000 (constantI S_ 32 0#32))) (addi (m ((c.tc : Thread nD τ).loc main_arg4)) (broadcastInDim S6400000 ![] bcast_S_S6400000 (constantI S_ 32 100000#32))) (m ((c.tc : Thread nD τ).loc main_arg4))))) (broadcastInDim S6400000 ![] bcast_S_S6400000 (constant (F := Ideal) S_ .f32 0x7FC00000#32)) : FVec Ideal S6400000 .f32)) : FVec Ideal S6400000 .f32)) shapeCasts_S6400000_S50000x128 := by
    dsimp only [V, V0]
    simp only [hostOps0, hostOps0_1, hostOps0_2, hostOps0_3, hostOps0_4, hostOps0_5, List.flatten_cons, List.flatten_nil,
      List.append_nil, List.cons_append, List.nil_append]
    after_results_simp
    rfl
  show V m c main_v6 = _
  rw [e, ofBuf_toBuf, ofBuf_toBuf, toBuf_main_v0, toBuf_main_v1]
  rfl

set_option maxHeartbeats 40000000 in
/-- As its second input, the product of the two takes of the dipoles. -/
theorem V_products_d (c : Dev nD) :
    V m c (Pipeline.arrRef spec0 1) = shapeCast S50000x128
      (mulf (take (m ((c.tc : Thread nD τ).loc main_arg1)) (m ((c.tc : Thread nD τ).loc main_arg3))) (take (m ((c.tc : Thread nD τ).loc main_arg1)) (m ((c.tc : Thread nD τ).loc main_arg4))))
      shapeCasts_S6400000_S50000x128 := by
  have e : V m c main_v7 = shapeCast S50000x128 (mulf (F := Ideal) (s := S6400000) (φ := .f32) (((TRef.of main_v3 : TRef sig ⟨S6400000, .f32⟩).toBuf (Val := Elt Ideal) (select ((TRef.of main_call2_v12 : TRef sig ⟨S6400000, .i1⟩).ofBuf (Val := Elt Ideal) ((TRef.of main_call2_v12 : TRef sig ⟨S6400000, .i1⟩).toBuf (Val := Elt Ideal) (Host.reduce IntOp.andi (andi (cmpi .sge (broadcastInDim S6400000x1 ![0] bcast_S6400000_S6400000x1_0 (select (cmpi .slt (m ((c.tc : Thread nD τ).loc main_arg3)) (broadcastInDim S6400000 ![] bcast_S_S6400000 (constantI S_ 32 0#32))) (addi (m ((c.tc : Thread nD τ).loc main_arg3)) (broadcastInDim S6400000 ![] bcast_S_S6400000 (constantI S_ 32 100000#32))) (m ((c.tc : Thread nD τ).loc main_arg3)))) (broadcastInDim S6400000x1 ![] bcast_S_S6400000x1 (constantI S_ 32 0#32))) (cmpi .sle (broadcastInDim S6400000x1 ![0] bcast_S6400000_S6400000x1_0 (select (cmpi .slt (m ((c.tc : Thread nD τ).loc main_arg3)) (broadcastInDim S6400000 ![] bcast_S_S6400000 (constantI S_ 32 0#32))) (addi (m ((c.tc : Thread nD τ).loc main_arg3)) (broadcastInDim S6400000 ![] bcast_S_S6400000 (constantI S_ 32 100000#32))) (m ((c.tc : Thread nD τ).loc main_arg3)))) (broadcastInDim S6400000x1 ![0, 1] bcast_S1x1_S6400000x1_0_1 (broadcastInDim S1x1 ![1] bcast_S1_S1x1_1 (constantI S1 32 99999#32))))) (constantI S_ 1 1#1) reducesTo_S6400000x1_S6400000_d1 h_S_ : IVec S6400000 1)) : IVec S6400000 1) (Host.gather gather_S100000_S6400000x1_S6400000_n_0_n_n_0_1_1 (m ((c.tc : Thread nD τ).loc main_arg1) : FVec Ideal S100000 .f32) (broadcastInDim S6400000x1 ![0] bcast_S6400000_S6400000x1_0 (select (cmpi .slt (m ((c.tc : Thread nD τ).loc main_arg3)) (broadcastInDim S6400000 ![] bcast_S_S6400000 (constantI S_ 32 0#32))) (addi (m ((c.tc : Thread nD τ).loc main_arg3)) (broadcastInDim S6400000 ![] bcast_S_S6400000 (constantI S_ 32 100000#32))) (m ((c.tc : Thread nD τ).loc main_arg3))))) (broadcastInDim S6400000 ![] bcast_S_S6400000 (constant (F := Ideal) S_ .f32 0x7FC00000#32)) : FVec Ideal S6400000 .f32)) : FVec Ideal S6400000 .f32) (((TRef.of main_v4 : TRef sig ⟨S6400000, .f32⟩).toBuf (Val := Elt Ideal) (select ((TRef.of main_call3_v12 : TRef sig ⟨S6400000, .i1⟩).ofBuf (Val := Elt Ideal) ((TRef.of main_call3_v12 : TRef sig ⟨S6400000, .i1⟩).toBuf (Val := Elt Ideal) (Host.reduce IntOp.andi (andi (cmpi .sge (broadcastInDim S6400000x1 ![0] bcast_S6400000_S6400000x1_0 (select (cmpi .slt (m ((c.tc : Thread nD τ).loc main_arg4)) (broadcastInDim S6400000 ![] bcast_S_S6400000 (constantI S_ 32 0#32))) (addi (m ((c.tc : Thread nD τ).loc main_arg4)) (broadcastInDim S6400000 ![] bcast_S_S6400000 (constantI S_ 32 100000#32))) (m ((c.tc : Thread nD τ).loc main_arg4)))) (broadcastInDim S6400000x1 ![] bcast_S_S6400000x1 (constantI S_ 32 0#32))) (cmpi .sle (broadcastInDim S6400000x1 ![0] bcast_S6400000_S6400000x1_0 (select (cmpi .slt (m ((c.tc : Thread nD τ).loc main_arg4)) (broadcastInDim S6400000 ![] bcast_S_S6400000 (constantI S_ 32 0#32))) (addi (m ((c.tc : Thread nD τ).loc main_arg4)) (broadcastInDim S6400000 ![] bcast_S_S6400000 (constantI S_ 32 100000#32))) (m ((c.tc : Thread nD τ).loc main_arg4)))) (broadcastInDim S6400000x1 ![0, 1] bcast_S1x1_S6400000x1_0_1 (broadcastInDim S1x1 ![1] bcast_S1_S1x1_1 (constantI S1 32 99999#32))))) (constantI S_ 1 1#1) reducesTo_S6400000x1_S6400000_d1 h_S_ : IVec S6400000 1)) : IVec S6400000 1) (Host.gather gather_S100000_S6400000x1_S6400000_n_0_n_n_0_1_1 (m ((c.tc : Thread nD τ).loc main_arg1) : FVec Ideal S100000 .f32) (broadcastInDim S6400000x1 ![0] bcast_S6400000_S6400000x1_0 (select (cmpi .slt (m ((c.tc : Thread nD τ).loc main_arg4)) (broadcastInDim S6400000 ![] bcast_S_S6400000 (constantI S_ 32 0#32))) (addi (m ((c.tc : Thread nD τ).loc main_arg4)) (broadcastInDim S6400000 ![] bcast_S_S6400000 (constantI S_ 32 100000#32))) (m ((c.tc : Thread nD τ).loc main_arg4))))) (broadcastInDim S6400000 ![] bcast_S_S6400000 (constant (F := Ideal) S_ .f32 0x7FC00000#32)) : FVec Ideal S6400000 .f32)) : FVec Ideal S6400000 .f32)) shapeCasts_S6400000_S50000x128 := by
    dsimp only [V, V0]
    simp only [hostOps0, hostOps0_1, hostOps0_2, hostOps0_3, hostOps0_4, hostOps0_5, List.flatten_cons, List.flatten_nil,
      List.append_nil, List.cons_append, List.nil_append]
    after_results_simp
    rfl
  show V m c main_v7 = _
  rw [e, ofBuf_toBuf, ofBuf_toBuf, toBuf_main_v3, toBuf_main_v4]
  rfl

set_option maxHeartbeats 20000000 in
/-- As its third input, the distances. -/
theorem V_distances (c : Dev nD) :
    V m c (Pipeline.arrRef spec0 2) = shapeCast S50000x128 (m ((c.tc : Thread nD τ).loc main_arg2)) shapeCasts_S6400000_S50000x128 := by
  show V m c main_v8 = _
  dsimp only [V, V0]
  simp only [hostOps0, hostOps0_1, hostOps0_2, hostOps0_3, hostOps0_4, hostOps0_5, List.flatten_cons, List.flatten_nil,
    List.append_nil, List.cons_append, List.nil_append]
  after_results_simp
  rfl

end Cert.KernelIdeal.Host

end
-- ==== Proof.KernelResult.lean ====
/-
  The kernel program's result, as one term of the argument arrays.

  The region's output, laid out flat again, holds at edge j the edge energy of the two products of takes and the
  distance at j: the two layout changes, flat to [50000, 128] before the region and back after it, cancel position by
  position. The host operations after the region add that vector, edge by edge, onto a zero vector at the positions
  idx_i names.
-/
import proofs.«417304_j48241072668729_2_alg».proof.Proof.KernelArray
import proofs.«417304_j48241072668729_2_alg».proof.Proof.KernelHost

set_option maxRecDepth 16384

noncomputable section

namespace Cert.KernelIdeal.Result

open Cert.KernelIdeal Cert.KernelIdeal.Gen Cert.KernelIdeal.Host Idealize.ShloMosaic Idealize.ShloMosaic.TcCoe
open Idealize.SL.Sem Idealize.ShloMosaic.StableHlo

/-- The edge energies of three flat vectors, computed on their [50000, 128] layouts and laid out flat again, are the
    edge energies position by position. -/
theorem flat_energy (A0 A1 A2 : FVec Ideal S6400000 .f32) (j : S6400000.Idx) :
    shapeCast S6400000
        (fun y : S50000x128.Idx => Cert.Edge.energy (shapeCast S50000x128 A0 shapeCasts_S6400000_S50000x128 y)
          (shapeCast S50000x128 A1 shapeCasts_S6400000_S50000x128 y) (shapeCast S50000x128 A2 shapeCasts_S6400000_S50000x128 y))
        shapeCasts_S50000x128_S6400000 j
      = Cert.Edge.energy (A0 j) (A1 j) (A2 j) := by
  have r0 : shapeCast S50000x128 A0 shapeCasts_S6400000_S50000x128 (Shape.reshapeEquiv shapeCasts_S50000x128_S6400000 j) = A0 j :=
    congrFun (shapeCast_shapeCast A0 shapeCasts_S6400000_S50000x128 shapeCasts_S50000x128_S6400000) j
  have r1 : shapeCast S50000x128 A1 shapeCasts_S6400000_S50000x128 (Shape.reshapeEquiv shapeCasts_S50000x128_S6400000 j) = A1 j :=
    congrFun (shapeCast_shapeCast A1 shapeCasts_S6400000_S50000x128 shapeCasts_S50000x128_S6400000) j
  have r2 : shapeCast S50000x128 A2 shapeCasts_S6400000_S50000x128 (Shape.reshapeEquiv shapeCasts_S50000x128_S6400000 j) = A2 j :=
    congrFun (shapeCast_shapeCast A2 shapeCasts_S6400000_S50000x128 shapeCasts_S50000x128_S6400000) j
  show Cert.Edge.energy (shapeCast S50000x128 A0 shapeCasts_S6400000_S50000x128 (Shape.reshapeEquiv shapeCasts_S50000x128_S6400000 j))
      (shapeCast S50000x128 A1 shapeCasts_S6400000_S50000x128 (Shape.reshapeEquiv shapeCasts_S50000x128_S6400000 j))
      (shapeCast S50000x128 A2 shapeCasts_S6400000_S50000x128 (Shape.reshapeEquiv shapeCasts_S50000x128_S6400000 j)) = _
  rw [r0, r1, r2]

/-- The same with the three [50000, 128] arrays and the array of their energies given pointwise. -/
theorem flat_of (E B0 B1 B2 : S50000x128.Idx → Elt Ideal .f32) (A0 A1 A2 : FVec Ideal S6400000 .f32)
    (hE : ∀ i, E i = Cert.Edge.energy (B0 i) (B1 i) (B2 i))
    (h0 : ∀ i, B0 i = shapeCast S50000x128 A0 shapeCasts_S6400000_S50000x128 i)
    (h1 : ∀ i, B1 i = shapeCast S50000x128 A1 shapeCasts_S6400000_S50000x128 i)
    (h2 : ∀ i, B2 i = shapeCast S50000x128 A2 shapeCasts_S6400000_S50000x128 i) (j : S6400000.Idx) :
    shapeCast S6400000 E shapeCasts_S50000x128_S6400000 j = Cert.Edge.energy (A0 j) (A1 j) (A2 j) := by
  have e : E = fun y : S50000x128.Idx => Cert.Edge.energy (shapeCast S50000x128 A0 shapeCasts_S6400000_S50000x128 y)
      (shapeCast S50000x128 A1 shapeCasts_S6400000_S50000x128 y) (shapeCast S50000x128 A2 shapeCasts_S6400000_S50000x128 y) :=
    funext fun i => by rw [hE, h0, h1, h2]
  rw [e]
  exact flat_energy A0 A1 A2 j

/-- The vector the kernel program scatters: at edge j the edge energy of the products of takes and the distance. -/
def edgeVec (ch dp : FVec Ideal S100000 .f32) (d : FVec Ideal S6400000 .f32) (ii ij : IVec S6400000 32) :
    FVec Ideal S6400000 .f32 :=
  fun j => Cert.Edge.energy (mulf (take ch ii) (take ch ij) j) (mulf (take dp ii) (take dp ij) j) (d j)

/-- That vector at an edge. -/
theorem edgeVec_apply (ch dp : FVec Ideal S100000 .f32) (d : FVec Ideal S6400000 .f32) (ii ij : IVec S6400000 32)
    (j : S6400000.Idx) :
    edgeVec ch dp d ii ij j
      = Cert.Edge.energy (mulf (take ch ii) (take ch ij) j) (mulf (take dp ii) (take dp ij) j) (d j) := rfl

variable (m : (ℓ : Loc nD τ sig) → Buf (Elt Ideal) ℓ)

/-- The region's output array, laid out flat, is that vector. -/
theorem flat_output (c : Dev nD) :
    shapeCast S6400000 ((dats m 0 c).arrAt 3 cfg0.N : S50000x128.Idx → Elt Ideal .f32) shapeCasts_S50000x128_S6400000
      = edgeVec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  funext fun j => Eq.trans
    (flat_of ((dats m 0 c).arrAt 3 cfg0.N) (V m c (Pipeline.arrRef spec0 0)) (V m c (Pipeline.arrRef spec0 1)) (V m c (Pipeline.arrRef spec0 2))
      (mulf (take (m ((c.tc : Thread nD τ).loc main_arg0)) (m ((c.tc : Thread nD τ).loc main_arg3)))
        (take (m ((c.tc : Thread nD τ).loc main_arg0)) (m ((c.tc : Thread nD τ).loc main_arg4))))
      (mulf (take (m ((c.tc : Thread nD τ).loc main_arg1)) (m ((c.tc : Thread nD τ).loc main_arg3)))
        (take (m ((c.tc : Thread nD τ).loc main_arg1)) (m ((c.tc : Thread nD τ).loc main_arg4))))
      (m ((c.tc : Thread nD τ).loc main_arg2))
      (fun i => congrFun (Arr.final m c) i) (fun i => congrFun (V_products_q m c) i) (fun i => congrFun (V_products_d m c) i)
      (fun i => congrFun (V_distances m c) i) j)
    (edgeVec_apply _ _ _ _ _ j).symm

set_option maxHeartbeats 4000000 in
/-- What the result buffer holds after the host operations that follow the region: the scatter-add of the flat
    output onto zeros at the positions idx_i names. -/
theorem tail (c : Dev nD) :
    Pipeline.afterTail₀ cfgs (dats m) 0 (V0 m) [hostOps1] c main_v13
      = Host.scatterAdd scatter_S100000_S6400000x1_S6400000_n_0_0_1
          (broadcastInDim S100000 ![] bcast_S_S100000 (constant (F := Ideal) S_ .f32 0x00000000#32))
          (broadcastInDim S6400000x1 ![0] bcast_S6400000_S6400000x1_0 (m ((c.tc : Thread nD τ).loc main_arg3)))
          (shapeCast S6400000 ((dats m 0 c).arrAt 3 cfg0.N : S50000x128.Idx → Elt Ideal .f32) shapeCasts_S50000x128_S6400000) := by
  unfold Pipeline.afterTail₀
  show StableHlo.after hostOps1 _ (Proc.devRef .tc main_v13) = _
  after_results
  rw [Pipeline.withArrays_of_ne _ c (V0 m c) _ main_arg3 (by exact (by decide : ∀ w, Pipeline.arrRef spec0 w ≠ main_arg3))]
  rw [show Pipeline.withArrays (cfgs 0).spec c (V0 m c) (fun w => (dats m 0 c).arrAt w (cfgs 0).N) (Proc.devRef .tc main_v9)
      = (dats m 0 c).arrAt 3 cfg0.N from Pipeline.withArrays_arr spec0 launch0.win.arr_inj c _ _ 3]
  rw [show V0 m c (Proc.devRef .tc main_arg3) = m ((c.tc : Thread nD τ).loc main_arg3) from V_main_arg3 m c]
  rfl

/-- The kernel program's result buffer after the run, from the argument arrays. -/
theorem result (c : Dev nD) :
    Pipeline.afterTail₀ cfgs (dats m) 0 (V0 m) [hostOps1] c main_v13
      = Host.scatterAdd scatter_S100000_S6400000x1_S6400000_n_0_0_1
          (broadcastInDim S100000 ![] bcast_S_S100000 (constant (F := Ideal) S_ .f32 0x00000000#32))
          (broadcastInDim S6400000x1 ![0] bcast_S6400000_S6400000x1_0 (m ((c.tc : Thread nD τ).loc main_arg3)))
          (edgeVec (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))) := by
  rw [tail, flat_output]

end Cert.KernelIdeal.Result

end
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.TakeValue.lean ====
/-
  The take at a row whose index is in range: with -100000 <= idx[p] < 100000 the wrapped index lies in [0, 99999],
  the in-range test is 1 at row p, and the take is the gathered entry there — the fill word is never read.
-/
import proofs.«417304_j48241072668729_2_alg».proof.Proof.KernelHost
import proofs.«417304_j48241072668729_2_alg».proof.Proof.LibTakeFill
import Idealize.ShloMosaic.Lib.SortFacts

noncomputable section

namespace Cert.KernelIdeal.Host

open Cert.KernelIdeal Cert.KernelIdeal.Gen Idealize.ShloMosaic
open Idealize.ShloMosaic.StableHlo.Predicate (ixP)
open Idealize.ShloMosaic.ValueIdx (ix1)

/-- Row p of the column of start indices is the wrapped index of position p. -/
theorem column_row (idx : IVec S6400000 32) (p : Fin 6400000) :
    column idx (ixP p) = Scalar.select (IntOp.cmpi .slt (idx (ix1 p)) 0#32)
      (IntOp.addi (idx (ix1 p)) (BitVec.ofNat 32 100000)) (idx (ix1 p)) := by
  unfold column
  rw [StableHlo.Predicate.bcast_col1]
  have e : (Shape.Idx.ofFin p : (⟨1, ![6400000]⟩ : Shape).Idx) = ix1 p := by
    funext d
    match d with
    | ⟨0, _⟩ => rfl
  rw [e]
  rfl

/-- The in-range test is 1 at a row whose index lies in [-100000, 100000). -/
theorem inRange_row (idx : IVec S6400000 32) (p : Fin 6400000)
    (h : -100000 ≤ (idx (ix1 p)).toInt ∧ (idx (ix1 p)).toInt < 100000) : inRange idx (ix1 p) = 1#1 := by
  unfold inRange
  refine Cert.Lib.TakeFill.fill_mask_eq_one _ _ _ rfl _ _ _ p ?_
  rw [column_row]
  have hw := Cert.Lib.TakeFill.wrap_in_range 100000 (by decide) (by decide) (idx (ix1 p)) h.1 h.2
  have h0 : (0#32 : BitVec 32).toInt = 0 := rfl
  have h9 : (99999#32 : BitVec 32).toInt = 99999 := by decide
  constructor
  · show (0#32 : BitVec 32).toInt ≤ _
    rw [h0]; exact hw.1
  · show _ ≤ (99999#32 : BitVec 32).toInt
    rw [h9]; exact hw.2

/-- There the take is the gathered entry. -/
theorem take_row (x : FVec Ideal S100000 .f32) (idx : IVec S6400000 32) (p : Fin 6400000)
    (h : -100000 ≤ (idx (ix1 p)).toInt ∧ (idx (ix1 p)).toInt < 100000) :
    take x idx (ix1 p) = gathered x idx (ix1 p) := by
  unfold take
  show Scalar.select (inRange idx (ix1 p)) (gathered x idx (ix1 p)) _ = _
  rw [inRange_row idx p h, ValueIdx.select_one]

end Cert.KernelIdeal.Host

end
-- ==== Proof.RefEdge.lean ====
/-
  The reference's energy of one edge: its host operations are all pointwise up to the four gathers, so the vector it
  scatters is, position by position, the edge energy (in the reference's association) of the four gathered table
  entries and the distance at that position.
-/
import proofs.«417304_j48241072668729_2_alg».proof.Proof.Gen.ReferenceIdeal.Read
import proofs.«417304_j48241072668729_2_alg».proof.Proof.EdgeEnergy

set_option maxRecDepth 16384

noncomputable section

namespace Cert.ReferenceIdeal.RefValue

open Cert.ReferenceIdeal Cert.ReferenceIdeal.Gen Cert.ReferenceIdeal.Read Idealize.ShloMosaic

set_option maxHeartbeats 4000000 in
/-- The scattered vector at a position, from the gathered entries there. -/
theorem edge_at (x0 x1 : FVec Ideal S100000 .f32) (x2 : FVec Ideal S6400000 .f32) (x3 x4 : IVec S6400000 32)
    (j : S6400000.Idx) :
    val_main_v97 (F := Ideal) x0 x1 x2 x3 x4 j
      = Cert.Edge.refEnergy (val_main_v6 (F := Ideal) x0 x3 j) (val_main_v13 (F := Ideal) x0 x4 j)
          (val_main_v20 (F := Ideal) x1 x3 j) (val_main_v27 (F := Ideal) x1 x4 j) (x2 j) := by
  rfl

end Cert.ReferenceIdeal.RefValue

end
-- ==== Proof.LibScatterHit.lean ====
import Idealize.ShloMosaic.PureOps.Dims
import Idealize.ShloMosaic.Lib.StableHlo.Predicate
import Idealize.ShloMosaic.Lib.ValueIdx

/-!
# Where a scatter over a rank-1 operand lands

jax's `x.at[idx].add(v)` (and `segment_sum`) over a rank-1 operand of length `N` prints as a
`stablehlo.scatter` whose scatter indices are the [n × 1] COLUMN of positions and whose updates are
the length-`n` vector: no update window axes, the operand's one axis inserted and scatter-indexed,
the index vector on axis 1. This file reads the operand position of one update off the index column.
-/

namespace Cert.Lib.ScatterHit

open Idealize.ShloMosaic
open Idealize.ShloMosaic.StableHlo.Predicate (ixP)
open Idealize.ShloMosaic.ValueIdx (ix1)

/-- THE HIT. For the scatter of a length-`n` update vector into a rank-1 operand of length `N` through an
    [n × 1] column of positions (`huw` … `hivd`: the printed dimension numbers, each by `rfl`): if update `p`
    lands on operand position `a`, then the index word of row `p`, read SIGNED, is `a`.

    The result index on the operand's one axis is start plus window coordinate. The axis is inserted, so it
    is not a kept axis and its window coordinate is `0`; it is the one axis the scatter map names, so its
    start is the signed value of the index word at row `p`, component `0` — the scatter-indices index whose
    axis-0 coordinate is `p`'s coordinate on the one update scatter axis and whose index-vector coordinate
    is the component number. Landing inside the operand makes that signed value nonnegative, so taking its
    natural-number part loses nothing. (An index outside the operand lands nowhere: it never gives `some a`.) -/
theorem scatter_hit {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (p : Fin n) (a : (⟨1, ![N]⟩ : Shape).Idx)
    (h : d.resultIdx? (ix1 p) idx = some a) :
    (idx (ixP p)).toInt = (((a 0).val : Nat) : Int) := by
  unfold ScatterDims.resultIdx? at h
  split at h
  · next hall =>
    -- inside the operand on every axis: `a` is start plus window coordinate, as a natural number
    have ha := Option.some.inj h
    subst ha
    have h0 := hall 0
    -- the operand's axis is inserted, so it is not among the kept axes: no window coordinate
    have hk : (0 : Fin 1) ∉ d.sKept := by
      show (0 : Fin 1) ∉ Shape.kept _ d.insertedWindowDims
      rw [hiw]; simp [Shape.kept]
    -- and it is the axis the scatter map names
    have hm : (0 : Fin 1) ∈ d.scatterDimsToOperandDims := by rw [hsd]; exact List.mem_singleton.mpr rfl
    have hw : d.window (ix1 p) 0 = 0 := by unfold ScatterDims.window; rw [dif_neg hk]
    have hs : d.start (ix1 p) idx 0 = (idx (ixP p)).toInt := by
      unfold ScatterDims.start
      rw [dif_pos hm]
      congr 2
      funext b
      match b with
      | ⟨0, _⟩ =>
        -- axis 0 of the scatter indices is not the index vector's: it reads the update's one scatter axis
        unfold ScatterDims.siIdx
        rw [dif_neg (by rw [hivd]; simp)]
        unfold ScatterDims.siCoord
        apply Fin.ext
        simp only [Fin.val_cast]
        have e : ∀ X : Fin 1, ((ix1 p : (⟨1, ![n]⟩ : Shape).Idx) X).val = p.val := fun X => by
          have hX : X = 0 := Subsingleton.elim _ _
          subst hX; rfl
        exact e _
      | ⟨1, _⟩ =>
        -- axis 1 is the index vector's: the component number, the position of operand axis 0 in the map
        unfold ScatterDims.siIdx
        rw [dif_pos (by rw [hivd])]
        apply Fin.ext
        show List.idxOf (0 : Fin 1) d.scatterDimsToOperandDims = 0
        rw [hsd]; simp
    show _ = ((d.start (ix1 p) idx 0 + d.window (ix1 p) 0).toNat : Int)
    rw [hw, hs] at h0 ⊢
    omega
  · exact absurd h (by simp)

end Cert.Lib.ScatterHit
-- ==== Proof.LibScatterCongr.lean ====
/-
  A scatter-add only reads the updates that land. For the float scatter-add of a length-n update vector into a rank-1
  operand through an [n x 1] column of positions, read on the extended reals (each operand entry plus the sum of the
  updates whose position is that entry), two update vectors that agree at every position that lands somewhere give
  the same result: an update whose index is outside the operand is never read.
-/
import Idealize.ShloMosaic.PureOps.Ideal
import Idealize.ShloMosaic.PureOps.Contract
import Idealize.ShloMosaic.Lib.ValueIdx

noncomputable section

namespace Cert.Lib.ScatterCongr

open Idealize.ShloMosaic
open Idealize.ShloMosaic.ValueIdx (ix1)

/-- Updates that agree wherever they land give the same scatter-add. -/
theorem scatterAdd_congr {N n w : Nat} (d : ScatterDims ⟨1, ![N]⟩ ⟨2, ![n, 1]⟩ ⟨1, ![n]⟩)
    (x : FVec Ideal ⟨1, ![N]⟩ .f32) (idx : IVec ⟨2, ![n, 1]⟩ w) (u u' : FVec Ideal ⟨1, ![n]⟩ .f32)
    (h : ∀ (a : (⟨1, ![N]⟩ : Shape).Idx) (p : Fin n), d.resultIdx? (ix1 p) idx = some a → u (ix1 p) = u' (ix1 p)) :
    Host.scatterAdd d x idx u = Host.scatterAdd d x idx u' := by
  funext a
  show Ideal.hostScatterAdd d x idx u a = Ideal.hostScatterAdd d x idx u' a
  unfold Ideal.hostScatterAdd
  refine congrArg (x a + ·) (Finset.sum_congr rfl ?_)
  intro j hj
  obtain ⟨p, rfl⟩ : ∃ p : Fin n, j = ix1 p := ⟨j 0, ValueIdx.eq_ix1 j⟩
  exact h a p (Finset.mem_filter.1 hj).2

end Cert.Lib.ScatterCongr

end
-- ==== Proof.Bridge.lean ====
/-
  The two results are one function of the argument arrays.

  Both programs end in the same scatter-add onto zeros at the positions idx_i names: atom a receives the sum, over the
  edges j whose idx_i[j] is a, of the edge's energy. So only edges with 0 <= idx_i[j] < 100000 are ever read: there
  the wrapped index is the index itself, the kernel's take at idx_i keeps the gathered entry, and it is the entry the
  reference gathers. For idx_j the precondition gives -100000 <= idx_j[j] < 100000 at every edge, so the take at
  idx_j keeps the gathered entry too. With the four gathered entries equal, the two energies of an edge are equal by
  the reassociation of products (`Cert.Edge.refEnergy_eq`), and the two sums agree term by term.
-/
import proofs.«417304_j48241072668729_2_alg».proof.Proof.KernelResult
import proofs.«417304_j48241072668729_2_alg».proof.Proof.TakeValue
import proofs.«417304_j48241072668729_2_alg».proof.Proof.RefEdge
import proofs.«417304_j48241072668729_2_alg».proof.Proof.LibScatterHit
import proofs.«417304_j48241072668729_2_alg».proof.Proof.LibScatterCongr

set_option maxRecDepth 16384

noncomputable section

namespace Cert.Bridge

open Idealize.ShloMosaic
open Idealize.ShloMosaic.StableHlo.Predicate (ixP)
open Idealize.ShloMosaic.ValueIdx (ix1)
open Cert.KernelIdeal.Host Cert.KernelIdeal.Result

/-- The kernel's gathered entries are the reference's four gather stages. -/
theorem gathered_q_i (x : FVec Ideal Cert.KernelIdeal.S100000 .f32) (idx : IVec Cert.KernelIdeal.S6400000 32) :
    gathered x idx = Cert.ReferenceIdeal.Read.val_main_v6 (F := Ideal) x idx := rfl
theorem gathered_q_j (x : FVec Ideal Cert.KernelIdeal.S100000 .f32) (idx : IVec Cert.KernelIdeal.S6400000 32) :
    gathered x idx = Cert.ReferenceIdeal.Read.val_main_v13 (F := Ideal) x idx := rfl
theorem gathered_d_i (x : FVec Ideal Cert.KernelIdeal.S100000 .f32) (idx : IVec Cert.KernelIdeal.S6400000 32) :
    gathered x idx = Cert.ReferenceIdeal.Read.val_main_v20 (F := Ideal) x idx := rfl
theorem gathered_d_j (x : FVec Ideal Cert.KernelIdeal.S100000 .f32) (idx : IVec Cert.KernelIdeal.S6400000 32) :
    gathered x idx = Cert.ReferenceIdeal.Read.val_main_v27 (F := Ideal) x idx := rfl

/-- An edge that lands on some atom has its idx_i in [0, 100000). -/
theorem landed_range (ii : IVec Cert.KernelIdeal.S6400000 32) (p : Fin 6400000) (a : Cert.KernelIdeal.S100000.Idx)
    (h : Cert.KernelIdeal.scatter_S100000_S6400000x1_S6400000_n_0_0_1.resultIdx? (ix1 p)
        (broadcastInDim Cert.KernelIdeal.S6400000x1 ![0] Cert.KernelIdeal.Gen.bcast_S6400000_S6400000x1_0 ii) = some a) :
    -100000 ≤ (ii (ix1 p)).toInt ∧ (ii (ix1 p)).toInt < 100000 := by
  have hit := Cert.Lib.ScatterHit.scatter_hit Cert.KernelIdeal.scatter_S100000_S6400000x1_S6400000_n_0_0_1 rfl rfl rfl rfl _ p a h
  rw [StableHlo.Predicate.bcast_col1] at hit
  have e : (Shape.Idx.ofFin p : (⟨1, ![6400000]⟩ : Shape).Idx) = ix1 p := by
    funext d
    match d with
    | ⟨0, _⟩ => rfl
  rw [e] at hit
  have ha : (a 0).val < 100000 := (a 0).isLt
  omega

/-- The reference's result stage, written with the kernel program's scatter record and broadcasts (the two
    programs print the same operations, each over its own copy of the shapes). -/
theorem reference_result (ch dp : FVec Ideal Cert.KernelIdeal.S100000 .f32) (d : FVec Ideal Cert.KernelIdeal.S6400000 .f32)
    (ii ij : IVec Cert.KernelIdeal.S6400000 32) :
    Cert.ReferenceIdeal.Read.val_main_v100 (F := Ideal) ch dp d ii ij
      = Host.scatterAdd Cert.KernelIdeal.scatter_S100000_S6400000x1_S6400000_n_0_0_1
          (broadcastInDim Cert.KernelIdeal.S100000 ![] Cert.KernelIdeal.Gen.bcast_S_S100000 (constant (F := Ideal) Cert.KernelIdeal.S_ .f32 0x00000000#32))
          (broadcastInDim Cert.KernelIdeal.S6400000x1 ![0] Cert.KernelIdeal.Gen.bcast_S6400000_S6400000x1_0 ii)
          (Cert.ReferenceIdeal.Read.val_main_v97 (F := Ideal) ch dp d ii ij) := rfl

/-- At an edge that lands on an atom the two programs' edge energies agree. -/
theorem edge_eq (ch dp : FVec Ideal Cert.KernelIdeal.S100000 .f32) (d : FVec Ideal Cert.KernelIdeal.S6400000 .f32)
    (ii ij : IVec Cert.KernelIdeal.S6400000 32)
    (hij : ∀ j : Cert.KernelIdeal.S6400000.Idx, -100000 ≤ (ij j).toInt ∧ (ij j).toInt < 100000)
    (a : Cert.KernelIdeal.S100000.Idx) (p : Fin 6400000)
    (h : Cert.KernelIdeal.scatter_S100000_S6400000x1_S6400000_n_0_0_1.resultIdx? (ix1 p)
        (broadcastInDim Cert.KernelIdeal.S6400000x1 ![0] Cert.KernelIdeal.Gen.bcast_S6400000_S6400000x1_0 ii) = some a) :
    edgeVec ch dp d ii ij (ix1 p) = Cert.ReferenceIdeal.Read.val_main_v97 (F := Ideal) ch dp d ii ij (ix1 p) := by
  have hii := landed_range ii p a h
  rw [Cert.ReferenceIdeal.RefValue.edge_at, Cert.Edge.refEnergy_eq, edgeVec_apply, ValueIdx.mulf_apply, ValueIdx.mulf_apply,
    take_row ch ii p hii, take_row ch ij p (hij _), take_row dp ii p hii, take_row dp ij p (hij _),
    gathered_q_i ch ii, gathered_q_j ch ij, gathered_d_i dp ii, gathered_d_j dp ij]

/-- THE RESULTS AGREE: under the range of idx_j the kernel program's scatter-add is the reference's result. -/
theorem result_eq (ch dp : FVec Ideal Cert.KernelIdeal.S100000 .f32) (d : FVec Ideal Cert.KernelIdeal.S6400000 .f32)
    (ii ij : IVec Cert.KernelIdeal.S6400000 32)
    (hij : ∀ j : Cert.KernelIdeal.S6400000.Idx, -100000 ≤ (ij j).toInt ∧ (ij j).toInt < 100000) :
    Host.scatterAdd Cert.KernelIdeal.scatter_S100000_S6400000x1_S6400000_n_0_0_1
        (broadcastInDim Cert.KernelIdeal.S100000 ![] Cert.KernelIdeal.Gen.bcast_S_S100000 (constant (F := Ideal) Cert.KernelIdeal.S_ .f32 0x00000000#32))
        (broadcastInDim Cert.KernelIdeal.S6400000x1 ![0] Cert.KernelIdeal.Gen.bcast_S6400000_S6400000x1_0 ii)
        (edgeVec ch dp d ii ij)
      = Cert.ReferenceIdeal.Read.val_main_v100 (F := Ideal) ch dp d ii ij :=
  (Cert.Lib.ScatterCongr.scatterAdd_congr _ _ _ _ _ (fun a p h => edge_eq ch dp d ii ij hij a p h)).trans
    (reference_result ch dp d ii ij).symm

end Cert.Bridge

end
-- ==== Proof.PreRange.lean ====
import proofs.«417304_j48241072668729_2_alg».proof.Pre_finite_inputs
import Idealize.ShloMosaic.Lib.ReduceAll
import Idealize.ShloMosaic.Lib.StableHlo.Predicate
import Idealize.ShloMosaic.Lib.ValueIdx

/-!
# The index range the precondition grants

The precondition is the conjunction of three "every float input is finite" tests and of
`jnp.all((idx_j >= -100000) & (idx_j < 100000))`. From "the predicate is all ones" this file reads
the last conjunct at every position of `idx_j`; the three float conjuncts are passed over unopened.
-/

namespace Cert.PreRange

open Idealize.ShloMosaic
open Idealize.ShloMosaic.StableHlo

/-- A rank-0 value has one index. -/
instance : Subsingleton Cert.Pre_finite_inputs.S_.Idx := ⟨fun a b => funext fun d => d.elim0⟩

/-- The printed lower bound, read signed, is `-100000` (a closed 32-bit fact). -/
theorem lo_toInt : (4294867296#32 : BitVec 32).toInt = -100000 := by decide
/-- The printed upper bound, read signed, is `100000` (a closed 32-bit fact). -/
theorem hi_toInt : (100000#32 : BitVec 32).toInt = 100000 := by decide

/-- Under the precondition every word of `idx_j`, read SIGNED, lies in `[-100000, 100000)`.

    The predicate's one word is `(finite₀ ∧ finite₁ ∧ finite₂) ∧ all(range)`; a conjunction of `i1` words that
    is `1` has both halves `1`, so `all(range) = 1`. A reduce by `and` into a result of one index that is `1` met
    a `1` at every operand position, so at `j` the word `(idx_j[j] ≥ lo) ∧ (idx_j[j] < hi)` is `1`; its two halves
    are signed comparisons against a scalar constant broadcast along the axis, which reads the constant at
    every position. -/
theorem idx_j_range {F : FTy → Type} [FloatOps F] [Cert.Pre_finite_inputs.Facts]
    (a0 a1 : FVec F Cert.Pre_finite_inputs.S100000 .f32) (a2 : FVec F Cert.Pre_finite_inputs.S6400000 .f32)
    (a3 a4 : IVec Cert.Pre_finite_inputs.S6400000 32)
    (h : Cert.Pre_finite_inputs.fn (F := F) a0 a1 a2 a3 a4 = fun _ => 1#1)
    (j : Cert.Pre_finite_inputs.S6400000.Idx) :
    -100000 ≤ (a4 j).toInt ∧ (a4 j).toInt < 100000 := by
  -- the predicate's one word, with the chain of `let`s opened
  have h0 := congrFun h ValueIdx.ix0
  unfold Cert.Pre_finite_inputs.fn Cert.Pre_finite_inputs.fn_part1 at h0
  dsimp only at h0
  -- past the three float conjuncts: only the last half of the outer conjunction is kept
  obtain ⟨-, hred⟩ := IntOp.andi_eq_one.1 h0
  -- `all`: the reduce by `and` is 1, so the reduced vector is 1 at `j`
  have hj := Host.reduce_andi_all _ _ _ _ _ hred j
  obtain ⟨hge, hlt⟩ := IntOp.andi_eq_one.1 hj
  have hge' := IntOp.cmpi_sge.1 hge
  have hlt' := IntOp.cmpi_slt.1 hlt
  -- a broadcast rank-0 constant reads the constant at `j`
  have hge'' : (4294867296#32 : BitVec 32).toInt ≤ (a4 j).toInt := hge'
  have hlt'' : (a4 j).toInt < (100000#32 : BitVec 32).toInt := hlt'
  rw [lo_toInt] at hge''
  rw [hi_toInt] at hlt''
  exact ⟨hge'', hlt''⟩

end Cert.PreRange
-- ==== Proof.lean ====
/-
  The kernel program and the reference compute the same per-atom electrostatic energies.

  Both gather, for every edge j, the charges and the dipoles of the atoms idx_i[j] and idx_j[j], form the edge's
  damped-electrostatics energy from them and the distance d[j] (a charge term and a dipole term, each blended between
  a shielded and an ordinary profile by a short-range switch, zero beyond the cutoff), and add the edge energies onto
  the atoms idx_i names. The kernel program forms the products q_i q_j and mu_i mu_j on the host, computes the energy of
  all edges in a pointwise kernel over [50000, 128] blocks, and scatters; the reference does everything on the host.

  Where they differ: (1) the kernel program's gather fills an out-of-range read instead of clamping it. An edge whose
  idx_i is out of range contributes to no atom in either program, so only idx_j matters, and the precondition keeps idx_j
  in the range of the tables it indexes, [-100000, 100000) with NumPy's wrap of negative indices, where the two
  gathers agree. (2) The products are associated differently (K (q_i q_j) against (K q_i) q_j, x (x x) against
  (x x) x): on the extended reals multiplication is commutative and associative without any side condition, so no
  finiteness is used. The precondition's finiteness conjuncts are never opened.

  The three frames are the generated ones (the reference's is its generated run with the result dropped); the ideal pass
  rewrote nothing, so the kernel's idealization statement is trivial.
-/
import proofs.«417304_j48241072668729_2_alg».proof.Defs
import proofs.«417304_j48241072668729_2_alg».proof.Proof.Gen.Kernel
import proofs.«417304_j48241072668729_2_alg».proof.Proof.Gen.Kernel.Skeleton
import proofs.«417304_j48241072668729_2_alg».proof.Proof.Gen.Kernel.Launch
import proofs.«417304_j48241072668729_2_alg».proof.Proof.Gen.Kernel.Points
import proofs.«417304_j48241072668729_2_alg».proof.Proof.Gen.Kernel.Frame
import proofs.«417304_j48241072668729_2_alg».proof.Proof.Gen.KernelIdeal
import proofs.«417304_j48241072668729_2_alg».proof.Proof.Gen.KernelIdeal.Skeleton
import proofs.«417304_j48241072668729_2_alg».proof.Proof.Gen.KernelIdeal.Launch
import proofs.«417304_j48241072668729_2_alg».proof.Proof.Gen.KernelIdeal.Points
import proofs.«417304_j48241072668729_2_alg».proof.Proof.Gen.KernelIdeal.Frame
import proofs.«417304_j48241072668729_2_alg».proof.Proof.Gen.ReferenceIdeal
import proofs.«417304_j48241072668729_2_alg».proof.Proof.Gen.Pre_finite_inputs
import proofs.«417304_j48241072668729_2_alg».proof.Proof.Gen.ReferenceIdeal.Run
import proofs.«417304_j48241072668729_2_alg».proof.Proof.Gen.ReferenceIdeal.Read
import proofs.«417304_j48241072668729_2_alg».proof.Proof.Bridge
import proofs.«417304_j48241072668729_2_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end holding the reference's result function of the argument arrays. -/
theorem algebraic : Cert.algebraic_KernelIdeal_ReferenceIdeal := by
  intro m ρ m' ρ' hpre hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Gen.run_main m ρ)
    have hij : ∀ j : Cert.KernelIdeal.S6400000.Idx, -100000 ≤ ((m ((c.tc : Thread Cert.KernelIdeal.nD Cert.KernelIdeal.τ).loc Cert.KernelIdeal.main_arg4)) j).toInt ∧ ((m ((c.tc : Thread Cert.KernelIdeal.nD Cert.KernelIdeal.τ).loc Cert.KernelIdeal.main_arg4)) j).toInt < 100000 :=
      fun j => Cert.PreRange.idx_j_range _ _ _ _ _ (hpre c) j
    exact ⟨((h c).2 Cert.KernelIdeal.main_v13 (Pipeline.mem_restRefs_of Cert.KernelIdeal.main_v13 (by decide) (by decide))).trans
        ((Cert.KernelIdeal.Result.result m c).trans (Cert.Bridge.result_eq _ _ _ _ _ hij)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c)⟩
  · refine (θ_run Cert.ReferenceIdeal.defs _ _).mono (fun r h c => ⟨?_, (h c).2⟩)
      (Cert.ReferenceIdeal.Value.run (F := Ideal) m' ρ')
    rw [(h c).1, Cert.ReferenceIdeal.Read.val_main_v100_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
